-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x32x32 : Shape := ⟨4, ![4, 128, 32, 32]⟩
abbrev S32768x1x1x1 : Shape := ⟨4, ![32768, 1, 1, 1]⟩
abbrev S_ : Shape := ⟨0, ![]⟩

class Facts : Prop where
  bcast_S_S4x128x32x32 : S_.BroadcastsInDim S4x128x32x32 (![] : Fin 0 → Fin S4x128x32x32.rank)
  reducesTo_S4x128x32x32_S_d0_1_2_3 : S4x128x32x32.ReducesTo [0, 1, 2, 3] S_
  h_S_ : 0 < S_.numel
  bcast_S_S32768x1x1x1 : S_.BroadcastsInDim S32768x1x1x1 (![] : Fin 0 → Fin S32768x1x1x1.rank)
  reducesTo_S32768x1x1x1_S_d0_1_2_3 : S32768x1x1x1.ReducesTo [0, 1, 2, 3] S_

variable [Facts]

def fn {F : FTy → Type} [FloatOps F] (main_arg0 : FVec F S4x128x32x32 .f32) (main_arg1 : FVec F S32768x1x1x1 .f32) : IVec S_ 1 :=
  let main_v0 : FVec F S4x128x32x32 .f32 := Host.absf main_arg0
  let main_cst : FVec F S_ .f32 := constant S_ .f32 0x7F800000#32
  let main_v1 : FVec F S4x128x32x32 .f32 := broadcastInDim S4x128x32x32 ![] bcast_S_S4x128x32x32 main_cst
  let main_v2 : IVec S4x128x32x32 1 := cmpf .olt main_v0 main_v1
  let main_c : IVec S_ 1 := constantI S_ 1 1#1
  let main_v3 : IVec S_ 1 := (fun x v => Host.reduce IntOp.andi x v reducesTo_S4x128x32x32_S_d0_1_2_3 h_S_) main_v2 main_c
  let main_v4 : FVec F S32768x1x1x1 .f32 := Host.absf main_arg1
  let main_cst_0 : FVec F S_ .f32 := constant S_ .f32 0x7F800000#32
  let main_v5 : FVec F S32768x1x1x1 .f32 := broadcastInDim S32768x1x1x1 ![] bcast_S_S32768x1x1x1 main_cst_0
  let main_v6 : IVec S32768x1x1x1 1 := cmpf .olt main_v4 main_v5
  let main_c_1 : IVec S_ 1 := constantI S_ 1 1#1
  let main_v7 : IVec S_ 1 := (fun x v => Host.reduce IntOp.andi x v reducesTo_S32768x1x1x1_S_d0_1_2_3 h_S_) main_v6 main_c_1
  let main_v8 : IVec S_ 1 := andi main_v3 main_v7
  main_v8
-- ==== Kernel.lean ====
abbrev S4x128x32x32 : Shape := ⟨4, ![4, 128, 32, 32]⟩
abbrev S32768x1x1x1 : Shape := ⟨4, ![32768, 1, 1, 1]⟩
abbrev S4x128x1024 : Shape := ⟨3, ![4, 128, 1024]⟩
abbrev S256x128 : Shape := ⟨2, ![256, 128]⟩
abbrev S4x256x1024 : Shape := ⟨3, ![4, 256, 1024]⟩
abbrev S1x128x512 : Shape := ⟨3, ![1, 128, 512]⟩
abbrev S1x256x512 : Shape := ⟨3, ![1, 256, 512]⟩
abbrev S128x512 : Shape := ⟨2, ![128, 512]⟩
abbrev S256x512 : Shape := ⟨2, ![256, 512]⟩
abbrev S4x256x32x32 : Shape := ⟨4, ![4, 256, 32, 32]⟩

abbrev nBuf : Space → Nat
  | .hbm => 6
  | .vmem => 5
  | .smem => 0
  | _ => 0

abbrev bufTy : (tb : Table) → Fin (tcTables nBuf tb) → BufTy
  | .hbm, ⟨0, _⟩ => ⟨S4x128x32x32, .f32⟩
  | .hbm, ⟨1, _⟩ => ⟨S32768x1x1x1, .f32⟩
  | .hbm, ⟨2, _⟩ => ⟨S4x128x1024, .f32⟩
  | .hbm, ⟨3, _⟩ => ⟨S256x128, .f32⟩
  | .hbm, ⟨4, _⟩ => ⟨S4x256x1024, .f32⟩
  | .hbm, ⟨5, _⟩ => ⟨S4x256x32x32, .f32⟩
  | .local _ .vmem, ⟨0, _⟩ => ⟨S1x128x512, .f32⟩
  | .local _ .vmem, ⟨1, _⟩ => ⟨S1x128x512, .f32⟩
  | .local _ .vmem, ⟨2, _⟩ => ⟨S256x128, .f32⟩
  | .local _ .vmem, ⟨3, _⟩ => ⟨S1x256x512, .f32⟩
  | .local _ .vmem, ⟨4, _⟩ => ⟨S1x256x512, .f32⟩
  | _, _ => ⟨S4x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x128x32x32_S4x128x1024 : S4x128x32x32.ShapeCasts S4x128x1024
  shapeCasts_S32768x1x1x1_S256x128 : S32768x1x1x1.ShapeCasts S256x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S4x256x1024_S4x256x32x32 : S4x256x1024.ShapeCasts S4x256x32x32
  dot_S256x128_S128x512_S256x512_1_0_0_1_n_n_wf : DotDims.WF S256x128 S128x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x128x1024.size a
  hwx0_0 : ∀ i : grid0.Coords, EltTy.bits .f32 = 32 ∨ (Rect.block (s := S4x128x1024) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x256x1024.size a
  hwx0_2 : ∀ i : grid0.Coords, EltTy.bits .f32 = 32 ∨ (Rect.block (s := S4x256x1024) S1x256x512.size (cc0_transform_2 i) (hinb0_2 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf

abbrev win0_0 : Pipeline.Window sig grid0 :=
  Pipeline.Window.ofSpec (Memref.whole main_v0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x32x32 : Shape := ⟨4, ![4, 128, 32, 32]⟩
abbrev S32768x1x1x1 : Shape := ⟨4, ![32768, 1, 1, 1]⟩
abbrev S256x128 : Shape := ⟨2, ![256, 128]⟩
abbrev S4x1x128x32x32 : Shape := ⟨5, ![4, 1, 128, 32, 32]⟩
abbrev S1x256x128x1x1 : Shape := ⟨5, ![1, 256, 128, 1, 1]⟩
abbrev S4x256x128x32x32 : Shape := ⟨5, ![4, 256, 128, 32, 32]⟩
abbrev S_ : Shape := ⟨0, ![]⟩
abbrev S4x256x32x32 : Shape := ⟨4, ![4, 256, 32, 32]⟩

abbrev nBuf : Space → Nat
  | .hbm => 13
  | .vmem => 0
  | .smem => 0
  | _ => 0

abbrev bufTy : (tb : Table) → Fin (tcTables nBuf tb) → BufTy
  | .hbm, ⟨0, _⟩ => ⟨S4x128x32x32, .f32⟩
  | .hbm, ⟨1, _⟩ => ⟨S32768x1x1x1, .f32⟩
  | .hbm, ⟨2, _⟩ => ⟨S256x128, .f32⟩
  | .hbm, ⟨3, _⟩ => ⟨S4x1x128x32x32, .f32⟩
  | .hbm, ⟨4, _⟩ => ⟨S1x256x128x1x1, .f32⟩
  | .hbm, ⟨5, _⟩ => ⟨S4x256x128x32x32, .f32⟩
  | .hbm, ⟨6, _⟩ => ⟨S4x256x128x32x32, .f32⟩
  | .hbm, ⟨7, _⟩ => ⟨S4x256x128x32x32, .f32⟩
  | .hbm, ⟨8, _⟩ => ⟨S_, .f32⟩
  | .hbm, ⟨9, _⟩ => ⟨S4x256x128x32x32, .f32⟩
  | .hbm, ⟨10, _⟩ => ⟨S4x256x128x32x32, .f32⟩
  | .hbm, ⟨11, _⟩ => ⟨S_, .f32⟩
  | .hbm, ⟨12, _⟩ => ⟨S4x256x32x32, .f32⟩
  | _, _ => ⟨S4x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S32768x1x1x1_S256x128 : S32768x1x1x1.ShapeCasts S256x128
  bcast_S4x128x32x32_S4x1x128x32x32_0_2_3_4 : S4x128x32x32.BroadcastsInDim S4x1x128x32x32 (![0, 2, 3, 4] : Fin 4 → Fin S4x1x128x32x32.rank)
  bcast_S256x128_S1x256x128x1x1_1_2 : S256x128.BroadcastsInDim S1x256x128x1x1 (![1, 2] : Fin 2 → Fin S1x256x128x1x1.rank)
  bcast_S4x1x128x32x32_S4x256x128x32x32_0_1_2_3_4 : S4x1x128x32x32.BroadcastsInDim S4x256x128x32x32 (![0, 1, 2, 3, 4] : Fin 5 → Fin S4x256x128x32x32.rank)
  bcast_S1x256x128x1x1_S4x256x128x32x32_0_1_2_3_4 : S1x256x128x1x1.BroadcastsInDim S4x256x128x32x32 (![0, 1, 2, 3, 4] : Fin 5 → Fin S4x256x128x32x32.rank)
  bcast_S_S4x256x128x32x32 : S_.BroadcastsInDim S4x256x128x32x32 (![] : Fin 0 → Fin S4x256x128x32x32.rank)
  reducesTo_S4x256x128x32x32_S4x256x32x32_d2 : S4x256x128x32x32.ReducesTo [2] S4x256x32x32
  h_S_ : 0 < S_.numel

variable [Facts₀]

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelPayload.lean ====
/-
  What the kernel's body stores, read at an index.

  The body loads a block `x` of the merged activations (1 × 128 × 512: one batch entry, all input channels, 512
  spatial positions) and the whole weight matrix `u` (256 × 128), takes the positive and the negative parts of both,
  multiplies the positive parts and the negative parts as matrices (256 × 128 by 128 × 512, into a zero
  accumulator) and stores the sum of the two products. At the ideal values the change of float format before the
  products is the identity, a matrix product into zero is the sum over the contracted axis, and the literal the
  parts are taken against is zero. So the stored block at `(0, o, p)` is

      Σ_k max u[o, k] 0 · max x[0, k, p] 0  +  Σ_k min u[o, k] 0 · min x[0, k, p] 0.
-/
import proofs.«121558_j57827439673971_1_alg».proof.Proof.Gen.KernelIdeal.Skeleton
import proofs.«121558_j57827439673971_1_alg».proof.Proof.LibPlainDot
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The body's matrix product into the zero accumulator, at `(o, p)`: the sum over the input channel. -/
theorem dot_apply (l : FVec Ideal S256x128 .bf16) (r : FVec Ideal S128x512 .bf16) (o : Fin 256) (p : Fin 512) :
    matmul dot_S256x128_S128x512_S256x512_1_0_0_1_n_n none l r (constant (F := Ideal) S256x512 .f32 0x00000000#32) (ix2 o p)
      = ∑ k : Fin 128, l (ix2 o k) * r (ix2 k p) :=
  PlainDot.matmul_zero_apply 256 128 512 none l r (ix2 o p)

/-- The stored block at `(0, o, p)`: the product of the positive parts plus the product of the negative parts. -/
theorem pay_apply (x0 : Vec Ideal S1x128x512 .f32) (x1 : Vec Ideal S256x128 .f32) (o : Fin 256) (p : Fin 512) :
    k0_pay1 (F := Ideal) x0 x1 (ix3 (0 : Fin 1) o p)
      = (∑ k : Fin 128, max (x1 (ix2 o k)) 0 * max (x0 (ix3 (0 : Fin 1) k p)) 0)
        + ∑ k : Fin 128, min (x1 (ix2 o k)) 0 * min (x0 (ix3 (0 : Fin 1) k p)) 0 := by
  unfold k0_pay1
  refine (shapeCast_ab_1ab_apply _ _ (0 : Fin 1) o p).trans ?_
  refine (addf_apply _ _ _).trans ?_
  refine congrArg₂ (· + ·) ((dot_apply _ _ o p).trans ?_) ((dot_apply _ _ o p).trans ?_)
  · refine Finset.sum_congr rfl fun k _ => ?_
    refine congrArg₂ (· * ·) ?_ ?_
    · show max (shapeCast S256x128 x1 _ (ix2 o k)) (Ideal.ofBits .f32 0x00000000#32) = _
      rw [shapeCast_self, Ideal.ofBits_zero_f32]
    · show max (shapeCast S128x512 x0 _ (ix2 k p)) (Ideal.ofBits .f32 0x00000000#32) = _
      rw [shapeCast_1ab_ab_apply, Ideal.ofBits_zero_f32]
  · refine Finset.sum_congr rfl fun k _ => ?_
    refine congrArg₂ (· * ·) ?_ ?_
    · show min (shapeCast S256x128 x1 _ (ix2 o k)) (Ideal.ofBits .f32 0x00000000#32) = _
      rw [shapeCast_self, Ideal.ofBits_zero_f32]
    · show min (shapeCast S128x512 x0 _ (ix2 k p)) (Ideal.ofBits .f32 0x00000000#32) = _
      rw [shapeCast_1ab_ab_apply, Ideal.ofBits_zero_f32]

end Cert.KernelIdeal.Payload

end
-- ==== Proof.ReluSplit.lean ====
/-
  The law that joins the two programs, on the extended reals.

  For extended reals `a`, `b` the positive part of the product splits by the signs of the factors:
  `max (a * b) 0 = max a 0 * max b 0 + min a 0 * min b 0`. When both are nonnegative the second summand is
  `0 * 0` and the first is the product itself; when both are nonpositive it is the other way round; when the
  signs differ the product is nonpositive and each summand has a zero factor. No finiteness is used: the sign
  rules of the product hold on all of the extended reals.

  Summed over a finite index set, the two sums of the right side (one over the positive parts, one over the
  negative parts) are together the sum of the positive parts of the products.
-/
import Mathlib.Data.EReal.Operations
import Mathlib.Algebra.BigOperators.Group.Finset.Basic

namespace Cert.ReluSplit

/-- The positive part of a product is the product of the positive parts plus the product of the negative parts. -/
theorem max_mul_zero (a b : EReal) : max (a * b) 0 = max a 0 * max b 0 + min a 0 * min b 0 := by
  rcases le_total 0 a with ha | ha <;> rcases le_total 0 b with hb | hb
  · rw [max_eq_left ha, max_eq_left hb, min_eq_right ha, min_eq_right hb, mul_zero, add_zero,
      max_eq_left (EReal.mul_nonneg_iff.mpr (.inl ⟨ha, hb⟩))]
  · rw [max_eq_left ha, max_eq_right hb, min_eq_right ha, min_eq_left hb, mul_zero, zero_mul, add_zero,
      max_eq_right (EReal.mul_nonpos_iff.mpr (.inl ⟨ha, hb⟩))]
  · rw [max_eq_right ha, max_eq_left hb, min_eq_left ha, min_eq_right hb, zero_mul, mul_zero, add_zero,
      max_eq_right (EReal.mul_nonpos_iff.mpr (.inr ⟨ha, hb⟩))]
  · rw [max_eq_right ha, max_eq_right hb, min_eq_left ha, min_eq_left hb, zero_mul, zero_add,
      max_eq_left (EReal.mul_nonneg_iff.mpr (.inr ⟨ha, hb⟩))]

/-- Over a finite index type: the sum of the products of the positive parts plus the sum of the products of the
    negative parts is the sum of the positive parts of the products (the factors in either order). -/
theorem sum_split {ι : Type*} [Fintype ι] (u v : ι → EReal) :
    (∑ k, max (u k) 0 * max (v k) 0) + (∑ k, min (u k) 0 * min (v k) 0) = ∑ k, max (v k * u k) 0 := by
  rw [← Finset.sum_add_distrib]
  refine Finset.sum_congr rfl fun k _ => ?_
  rw [EReal.mul_comm (v k) (u k), max_mul_zero]

end Cert.ReluSplit
-- ==== Proof.Spec.lean ====
/-
  The two forms of the result, and that they are one function of the arguments.

  Write `x[b, i, h, v]` for the activations (4 × 128 × 32 × 32) and `w[o · 128 + i]` for the flat weights
  (32768 of them, read as a 256 × 128 matrix `w[o, i]`). The reference computes

      G[b, o, h, v] = Σ_i max (x[b, i, h, v] · w[o, i]) 0,

  the positive part taken of every product before the sum over the input channel `i`. The kernel works on the
  arrays with the two spatial axes merged into one of length 1024 and the weights as a matrix, and computes, at
  `(b, o, q)`,

      K[b, o, q] = Σ_i max w[o, i] 0 · max x[b, i, q] 0  +  Σ_i min w[o, i] 0 · min x[b, i, q] 0,

  two matrix products, one of the positive parts and one of the negative parts. The positive part of a product
  splits by the signs of the factors (`ReluSplit.max_mul_zero`), so the two sums together are the reference's one
  sum (`ReluSplit.sum_split`); the merged spatial position `q = h · 32 + v` and the flat weight position
  `o · 128 + i` are the row-major positions the reshapes keep.
-/
import Idealize.ShloMosaic.PureOps.Ideal.Laws
import Idealize.ShloMosaic.Lib.ValueIdx
import Idealize.ShloMosaic.Lib.Pipeline.Value
import proofs.«121558_j57827439673971_1_alg».proof.Proof.ReluSplit

noncomputable section

namespace Cert.PointwiseRelu

open Idealize.ShloMosaic Idealize.ShloMosaic.ValueIdx

/-- The activations, the flat weights and the result, as the programs' arguments and result have them. -/
abbrev SX : Shape := ⟨4, ![4, 128, 32, 32]⟩
abbrev SW : Shape := ⟨4, ![32768, 1, 1, 1]⟩
abbrev SO : Shape := ⟨4, ![4, 256, 32, 32]⟩
/-- The same three with the spatial axes merged and the weights as a matrix: what the kernel's region works on. -/
abbrev SXr : Shape := ⟨3, ![4, 128, 1024]⟩
abbrev SWr : Shape := ⟨2, ![256, 128]⟩
abbrev SOr : Shape := ⟨3, ![4, 256, 1024]⟩

/-- The flat position of weight `(o, i)`. -/
abbrev wIdx (o : Fin 256) (i : Fin 128) : SW.Idx :=
  ix4 (⟨o.val * 128 + i.val, by omega⟩ : Fin 32768) (0 : Fin 1) (0 : Fin 1) (0 : Fin 1)

/-- The merged spatial position of `(h, v)`. -/
abbrev hv (h : Fin 32) (v : Fin 32) : Fin 1024 := ⟨h.val * 32 + v.val, by omega⟩

/-- The reference's form: the positive parts of the products, summed over the input channel. -/
def G (x : FVec Ideal SX .f32) (w : FVec Ideal SW .f32) : FVec Ideal SO .f32 :=
  fun j => ∑ i : Fin 128, max (x (ix4 (j 0) i (j 2) (j 3)) * w (wIdx (j 1) i)) 0

/-- The kernel's form on the merged arrays: the product of the positive parts plus the product of the negative parts. -/
def K (a : FVec Ideal SXr .f32) (u : FVec Ideal SWr .f32) : FVec Ideal SOr .f32 :=
  fun i => (∑ k : Fin 128, max (u (ix2 (i 1) k)) 0 * max (a (ix3 (i 0) k (i 2))) 0)
    + ∑ k : Fin 128, min (u (ix2 (i 1) k)) 0 * min (a (ix3 (i 0) k (i 2))) 0

/-- The kernel's form of the reshaped arguments, reshaped back, is the reference's form. -/
theorem K_eq_G (x : FVec Ideal SX .f32) (w : FVec Ideal SW .f32)
    (hx : SX.ShapeCasts SXr) (hw : SW.ShapeCasts SWr) (ho : SOr.ShapeCasts SO) :
    shapeCast SO (K (shapeCast SXr x hx) (shapeCast SWr w hw)) ho = G x w := by
  funext j
  have h0 : (j 0).val < 4 := (j 0).isLt
  have h1 : (j 1).val < 256 := (j 1).isLt
  have h2 : (j 2).val < 32 := (j 2).isLt
  have h3 : (j 3).val < 32 := (j 3).isLt
  -- the result's entry (b, o, h, v) is the merged array's entry (b, o, h · 32 + v)
  rw [shapeCast_apply (K (shapeCast SXr x hx) (shapeCast SWr w hw)) ho j (ix3 (j 0) (j 1) (hv (j 2) (j 3))) (by
    rw [Shape.rowMajor_val_three, Shape.rowMajor_val_four]
    show ((j 0).val * 256 + (j 1).val) * 1024 + ((j 2).val * 32 + (j 3).val)
      = (((j 0).val * 256 + (j 1).val) * 32 + (j 2).val) * 32 + (j 3).val
    omega)]
  -- the weight matrix's entry (o, i) is the flat weight o · 128 + i
  have ew : ∀ k : Fin 128, shapeCast SWr w hw (ix2 (j 1) k) = w (wIdx (j 1) k) := fun k =>
    shapeCast_apply w hw (ix2 (j 1) k) (wIdx (j 1) k) (by
      rw [Shape.rowMajor_val_four, Shape.rowMajor_val_two]
      show ((((j 1).val * 128 + k.val) * 1 + 0) * 1 + 0) * 1 + 0 = (j 1).val * 128 + k.val
      omega)
  -- the merged activations' entry (b, i, h · 32 + v) is the activation (b, i, h, v)
  have ex : ∀ k : Fin 128, shapeCast SXr x hx (ix3 (j 0) k (hv (j 2) (j 3))) = x (ix4 (j 0) k (j 2) (j 3)) := fun k =>
    shapeCast_apply x hx (ix3 (j 0) k (hv (j 2) (j 3))) (ix4 (j 0) k (j 2) (j 3)) (by
      rw [Shape.rowMajor_val_four, Shape.rowMajor_val_three]
      show (((j 0).val * 128 + k.val) * 32 + (j 2).val) * 32 + (j 3).val
        = ((j 0).val * 128 + k.val) * 1024 + ((j 2).val * 32 + (j 3).val)
      omega)
  show (∑ k : Fin 128, max (shapeCast SWr w hw (ix2 (j 1) k)) 0 * max (shapeCast SXr x hx (ix3 (j 0) k (hv (j 2) (j 3)))) 0)
      + (∑ k : Fin 128, min (shapeCast SWr w hw (ix2 (j 1) k)) 0 * min (shapeCast SXr x hx (ix3 (j 0) k (hv (j 2) (j 3)))) 0)
    = ∑ i : Fin 128, max (x (ix4 (j 0) i (j 2) (j 3)) * w (wIdx (j 1) i)) 0
  simp only [ew, ex]
  exact Cert.ReluSplit.sum_split (fun k => w (wIdx (j 1) k)) (fun k => x (ix4 (j 0) k (j 2) (j 3)))

end Cert.PointwiseRelu

end
-- ==== Proof.KernelValue.lean ====
/-
  The kernel's result array, as one function of the arguments.

  The region runs on a 4 × 2 grid. At point `(b, s)` it is given block `(b, 0, s)` of the merged activations (one
  batch entry, all 128 input channels, spatial positions `s · 512 … s · 512 + 511`), the whole weight matrix, and
  writes block `(b, 0, s)` of the merged result (all 256 output channels at the same spatial positions). What it
  writes at `(0, o, p)` of the block is the specification's `K` at `(b, o, s · 512 + p)` of the arrays the region
  finds (the payload read at an index, with each block entry located in its array). The eight blocks tile the merged
  result, so after the region that array is `K` of the merged activations and the weight matrix. The host
  reshapes the two arguments before the region and the result after it; so the program's result is `K` of the
  reshaped arguments, reshaped back, which the specification shows to be the reference's form `G`.
-/
import proofs.«121558_j57827439673971_1_alg».proof.Proof.Gen.KernelIdeal.Frame
import proofs.«121558_j57827439673971_1_alg».proof.Proof.KernelPayload
import proofs.«121558_j57827439673971_1_alg».proof.Proof.Spec
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.PointwiseRelu (K G)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The region finds the merged activations: the host's reshape of the first argument. -/
theorem V_v0 (c : Dev nD) :
    V m c main_v0 = shapeCast S4x128x1024 (m ((c : Thread nD τ).loc main_arg0)) shapeCasts_S4x128x32x32_S4x128x1024 := by
  show StableHlo.after hostOps0 (fun b => m (c, b)) (Proc.devRef .tc main_v0) = _
  after_results
  rfl

/-- The region finds the weight matrix: the host's reshape of the second argument. -/
theorem V_v1 (c : Dev nD) :
    V m c main_v1 = shapeCast S256x128 (m ((c : Thread nD τ).loc main_arg1)) shapeCasts_S32768x1x1x1_S256x128 := by
  show StableHlo.after hostOps0 (fun b => m (c, b)) (Proc.devRef .tc main_v1) = _
  after_results
  rfl

/-! ## One block -/

/-- The stored block at `(0, o, p)` is `K` at the array index `i`, once each loaded entry the payload reads is
    located in its array: the activations' block entry `(0, k, p)` at `(i 0, k, i 2)`, the weights' `(o, k)` at `(i 1, k)`. -/
theorem block_apply (a : FVec Ideal S4x128x1024 .f32) (u : FVec Ideal S256x128 .f32)
    (x0 : Vec Ideal S1x128x512 .f32) (x1 : Vec Ideal S256x128 .f32) (i : S4x256x1024.Idx) (o : Fin 256) (p : Fin 512)
    (h0 : ∀ k : Fin 128, x0 (ix3 (0 : Fin 1) k p) = a (ix3 (i 0) k (i 2)))
    (h1 : ∀ k : Fin 128, x1 (ix2 o k) = u (ix2 (i 1) k)) :
    k0_pay1 (F := Ideal) x0 x1 (ix3 (0 : Fin 1) o p) = K a u i := by
  rw [Payload.pay_apply]
  simp only [h0, h1]
  rfl

/-- The printed index maps over the grid: the activations' block moves with the result's on the batch and spatial
    axes, the channel axes and the weights stay at block zero, and the result's block indices are in range. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 2) = 0 ∧ win0_1.index t (1 : Fin 2) = 0
    ∧ win0_2.index t (1 : Fin 3) = 0 ∧ win0_2.index t (0 : Fin 3) ≤ 3 ∧ win0_2.index t (2 : Fin 3) ≤ 1 :=
  (by decide +kernel : ∀ t : Fin grid0.N, _)

/-- Every block of the merged result is some point's. -/
theorem idx_onto : ∀ (q0 : Fin 4) (q2 : Fin 2), ∃ t : Fin cfg0.N, win0_2.index t = ![q0.val, 0, q2.val] :=
  (by decide +kernel : ∀ (q0 : Fin 4) (q2 : Fin 2), ∃ t : Fin grid0.N, win0_2.index t = ![q0.val, 0, q2.val])

/-- What point `t` writes back is block `t` of `K` of the arrays the region finds. -/
theorem flushed_eq (c : Dev nD) (t : Fin cfg0.N) :
    (dats m 0 c).flushed 2 t = ((cfg0.win 2).blk t).view.read (Elt Ideal) (K (V m c main_v0) (V m c main_v1)) := by
  show (cfg0.win 2).cut (grid0.coords t) ((dats m 0 c).after 2 t) = _
  rw [after0_2]
  unfold out0_2
  rw [View.canon_unit_zero hz3]
  simp only [View.ld_unit_zero (S := S1x128x512) hz3, View.ld_unit_zero (S := S256x128) hz2]
  obtain ⟨e00, e01, e02, e10, e11, e21, b0, b2⟩ := idx_facts t
  funext y
  obtain ⟨z, o, p, rfl⟩ : ∃ (z : Fin 1) (o : Fin 256) (p : Fin 512), y = ix3 z o p := ⟨y 0, y 1, y 2, eq_ix3 y⟩
  obtain rfl : z = 0 := Subsingleton.elim _ _
  show k0_pay1 (F := Ideal) (iblk m c 0 t) (iblk m c 1 t) (ix3 (0 : Fin 1) o p)
    = K (V m c main_v0) (V m c main_v1) (((cfg0.win 2).blk t).view.emb (ix3 (0 : Fin 1) o p))
  refine block_apply (V m c main_v0) (V m c main_v1) (iblk m c 0 t) (iblk m c 1 t) _ o p ?_ ?_
  · intro k
    show V m c main_v0 (((cfg0.win 0).blk t).view.emb (ix3 (0 : Fin 1) k p)) = V m c main_v0 _
    refine congrArg (V m c main_v0) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 128 + 1 * k.val = k.val; omega
    | ⟨2, _⟩ => show win0_0.index t (2 : Fin 3) * 512 + 1 * p.val = win0_2.index t (2 : Fin 3) * 512 + 1 * p.val; omega
  · intro k
    show V m c main_v1 (((cfg0.win 1).blk t).view.emb (ix2 o k)) = V m c main_v1 _
    refine congrArg (V m c main_v1) (funext fun a => Fin.ext ?_)
    match a with
    | ⟨0, _⟩ => show win0_1.index t (0 : Fin 2) * 256 + 1 * o.val = win0_2.index t (1 : Fin 3) * 256 + 1 * o.val; omega
    | ⟨1, _⟩ => show win0_1.index t (1 : Fin 2) * 128 + 1 * k.val = k.val; omega

/-! ## The blocks tile the array -/

/-- An index of the merged result is in point `t`'s block iff each coordinate is in the block's range on its axis. -/
theorem mem_blk (t : Fin cfg0.N) (i : S4x256x1024.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v2).slice (win0_2.rect t)).set ↔ _
  rw [View.set_slice_whole, Rect.mem_set_unit]
  exact Iff.rfl

/-- Every index is in the block of the point at its batch entry and its half of the spatial positions. -/
theorem cover (i : S4x256x1024.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 1024 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- The merged result after the region: `K` of the arrays the region finds. -/
theorem final (c : Dev nD) : (dats m 0 c).arrAt 2 cfg0.N = K (V m c main_v0) (V m c main_v1) :=
  (dats m 0 c).arrAt_eq_of_cover 2 (K (V m c main_v0) (V m c main_v1)) (fun t _ => flushed_eq m c t) cover

/-! ## The program's result -/

/-- The result buffer after the host's last reshape: the reference's form of the arguments. -/
theorem result_eq (c : Dev nD) :
    Pipeline.afterTail₀ cfgs (dats m) 0 (V0 m) [hostOps1] c main_v3
      = G (m ((c : Thread nD τ).loc main_arg0)) (m ((c : Thread nD τ).loc main_arg1)) := by
  unfold Pipeline.afterTail₀
  show StableHlo.after hostOps1 _ (Proc.devRef .tc main_v3) = _
  after_results
  have e : Pipeline.withArrays spec0 c (V0 m c) (fun w => (dats m 0 c).arrAt w cfg0.N) (Proc.devRef .tc main_v2)
      = K (V m c main_v0) (V m c main_v1) :=
    (Pipeline.withArrays_arr spec0 launch0.win.arr_inj c _ _ 2).trans (final m c)
  show shapeCast S4x256x32x32 (Pipeline.withArrays spec0 c (V0 m c) (fun w => (dats m 0 c).arrAt w cfg0.N)
    (Proc.devRef .tc main_v2)) shapeCasts_S4x256x1024_S4x256x32x32 = _
  rw [e, V_v0, V_v1]
  exact Cert.PointwiseRelu.K_eq_G _ _ _ _ _

/-- The run, read: every weakly fair execution ends with the result buffer at the reference's form `G` of the
    arguments, and the arguments as launched. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference, read at an index, is the reference's form `G` of the specification.

  The reference broadcasts the activations along a new output-channel axis and the weight matrix along the batch and
  the two spatial axes, multiplies them entry by entry, takes the positive part, and sums over the input-channel
  axis starting from zero. Read at `(b, o, h, v)`, the broadcasts only drop coordinates, the reshape of the flat
  weights reads position `o · 128 + i`, and the sum over the reduced axis is a sum over `i : Fin 128`; so the entry
  is `0 + Σ_i max (x[b, i, h, v] · w[o · 128 + i]) 0`.
-/
import proofs.«121558_j57827439673971_1_alg».proof.Proof.Gen.ReferenceIdeal.Read
import proofs.«121558_j57827439673971_1_alg».proof.Proof.Spec

noncomputable section

namespace Cert.ReferenceIdeal.RefValue

open Cert.ReferenceIdeal Cert.ReferenceIdeal.Read Idealize.ShloMosaic Idealize.ShloMosaic.ValueIdx
open Cert.PointwiseRelu (G wIdx)

/-- Through the two broadcasts of the activations, entry `(b, o, i, h, v)` of the product's left factor is the
    activation `(b, i, h, v)`. -/
theorem idx_x (j : S4x256x32x32.Idx) (k : Fin 128) :
    idx_main_v1 (idx_main_v3 (idx_main_v7 j k)) = ix4 (j 0) k (j 2) (j 3) :=
  funext fun a => Fin.ext (by match a with | ⟨0, _⟩ => rfl | ⟨1, _⟩ => rfl | ⟨2, _⟩ => rfl | ⟨3, _⟩ => rfl)

/-- Through the two broadcasts and the reshape of the weights, entry `(b, o, i, h, v)` of the right factor is the
    flat weight `o · 128 + i`. -/
theorem idx_w (j : S4x256x32x32.Idx) (k : Fin 128) :
    idx_main_v0 (idx_main_v2 (idx_main_v4 (idx_main_v7 j k))) = wIdx (j 1) k :=
  funext fun a => Fin.ext (by
    match a with
    | ⟨0, _⟩ => exact Nat.div_one _
    | ⟨1, _⟩ => rfl
    | ⟨2, _⟩ => rfl
    | ⟨3, _⟩ => rfl)

/-- The reference's result, as the generated read of its run names it, is `G` of the arguments. -/
theorem ref_eq (x : (⟨S4x128x32x32, .f32⟩ : BufTy).Contents (Elt Ideal)) (w : (⟨S32768x1x1x1, .f32⟩ : BufTy).Contents (Elt Ideal)) :
    val_main_v7 (F := Ideal) x w = G x w := by
  funext j
  rw [val_main_v7_apply, val_main_cst_apply]
  simp only [val_main_v6_apply, val_main_v5_apply, val_main_call0_v0_apply, val_main_call0_cst_apply,
    val_main_v3_apply, val_main_v1_apply, val_main_v4_apply, val_main_v2_apply, val_main_v0_apply,
    idx_x, idx_w, Ideal.maximumf_def, Ideal.mulf_def, Ideal.ofBits_def, Ideal.ofBits_zero_f32, zero_add]
  rfl

end Cert.ReferenceIdeal.RefValue

end
-- ==== Proof.lean ====
/-
  The certificate of a pointwise convolution followed by a positive part and a sum over the input channel.

  The reference computes, for activations `x[b, i, h, v]` and weights `w[o, i]` (given flat, `o · 128 + i`),

      out[b, o, h, v] = Σ_i max (x[b, i, h, v] · w[o, i]) 0.

  The kernel never forms the products entry by entry. It uses that the positive part of a product splits by the signs
  of its factors, `max (a · b) 0 = max a 0 · max b 0 + min a 0 · min b 0`, and computes two matrix products over the
  input channel, one of the positive parts of `w` and `x` and one of their negative parts, block by block over a
  4 × 2 grid of the spatial axes merged into one. On the extended reals the splitting law holds for all values
  (`Proof/ReluSplit.lean`), so the two programs compute one function of their arguments (`Proof/Spec.lean`);
  `Proof/RefValue.lean` reads the reference at an index, `Proof/KernelPayload.lean` the kernel's stored block, and
  `Proof/KernelValue.lean` assembles the kernel's blocks into its result array.

  The three programs' frames are the generated ones (the reference's is its generated run with the result dropped);
  the idealization rewrote nothing, so there is nothing to preserve; the precondition is not used, since the
  splitting law needs no finiteness.
-/
import proofs.«121558_j57827439673971_1_alg».proof.Defs
import proofs.«121558_j57827439673971_1_alg».proof.Proof.Gen.Kernel
import proofs.«121558_j57827439673971_1_alg».proof.Proof.Gen.Kernel.Frame
import proofs.«121558_j57827439673971_1_alg».proof.Proof.Gen.KernelIdeal
import proofs.«121558_j57827439673971_1_alg».proof.Proof.Gen.KernelIdeal.Frame
import proofs.«121558_j57827439673971_1_alg».proof.Proof.Gen.ReferenceIdeal
import proofs.«121558_j57827439673971_1_alg».proof.Proof.Gen.ReferenceIdeal.Run
import proofs.«121558_j57827439673971_1_alg».proof.Proof.Gen.ReferenceIdeal.Read
import proofs.«121558_j57827439673971_1_alg».proof.Proof.Gen.Pre_finite_inputs
import proofs.«121558_j57827439673971_1_alg».proof.Proof.KernelValue
import proofs.«121558_j57827439673971_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the reference's form `G` of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
